-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩
abbrev S1x3200000 : Shape := ⟨2, ![1, 3200000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_
  slices_S2x3200000_S1x3200000_0_0 : S2x3200000.Slices ![0, 0] S1x3200000
  shapeCasts_S1x3200000_S3200000 : S1x3200000.ShapeCasts S3200000

variable [Facts]

def fn_part2 {F : FTy → Type} [FloatOps F] (main_v28 : IVec S_ 1) (main_v32 : IVec S3200000 1) (main_v34 : IVec S3200000 32) : IVec S_ 1 :=
  let main_c_11 : IVec S_ 32 := constantI S_ 32 100000#32
  let main_v35 : IVec S3200000 32 := broadcastInDim S3200000 ![] bcast_S_S3200000 main_c_11
  let main_v36 : IVec S3200000 1 := cmpi .slt main_v34 main_v35
  let main_v37 : IVec S3200000 1 := andi main_v32 main_v36
  let main_c_12 : IVec S_ 1 := constantI S_ 1 1#1
  let main_v38 : IVec S_ 1 := (fun x v => Host.reduce IntOp.andi x v reducesTo_S3200000_S_d0 h_S_) main_v37 main_c_12
  let main_v39 : IVec S_ 1 := andi main_v28 main_v38
  main_v39

def fn_part1 {F : FTy → Type} [FloatOps F] (main_arg1 : IVec S2x3200000 32) (main_arg5 : FVec F S64x7 .f32) (main_arg6 : FVec F S7 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x7 .f32 := Host.absf main_arg5
  let main_cst_6 : FVec F S_ .f32 := constant S_ .f32 0x7F800000#32
  let main_v20 : FVec F S64x7 .f32 := broadcastInDim S64x7 ![] bcast_S_S64x7 main_cst_6
  let main_v21 : IVec S64x7 1 := cmpf .olt main_v19 main_v20
  let main_c_7 : IVec S_ 1 := constantI S_ 1 1#1
  let main_v22 : IVec S_ 1 := (fun x v => Host.reduce IntOp.andi x v reducesTo_S64x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : IVec S1x3200000 32 := (extractStridedSlice S1x3200000 ![0, 0] · slices_S2x3200000_S1x3200000_0_0) main_arg1
  let main_v30 : IVec S3200000 32 := shapeCast S3200000 main_v29 shapeCasts_S1x3200000_S3200000
  let main_c_10 : IVec S_ 32 := constantI S_ 32 0#32
  let main_v31 : IVec S3200000 32 := broadcastInDim S3200000 ![] bcast_S_S3200000 main_c_10
  let main_v32 : IVec S3200000 1 := cmpi .sge main_v30 main_v31
  let main_v33 : IVec S1x3200000 32 := (extractStridedSlice S1x3200000 ![0, 0] · slices_S2x3200000_S1x3200000_0_0) main_arg1
  let main_v34 : IVec S3200000 32 := shapeCast S3200000 main_v33 shapeCasts_S1x3200000_S3200000
  fn_part2 (F := F) main_v28 main_v32 main_v34

def fn {F : FTy → Type} [FloatOps F] (main_arg0 : FVec F S100000x256 .f32) (main_arg1 : IVec S2x3200000 32) (main_arg2 : FVec F S3200000 .f32) (main_arg3 : FVec F S256x64 .f32) (main_arg4 : FVec F S64 .f32) (main_arg5 : FVec F S64x7 .f32) (main_arg6 : FVec F S7 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x7 : Shape := ⟨2, ![64, 7]⟩
abbrev S7 : Shape := ⟨1, ![7]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x256 : Shape := ⟨2, ![10000, 256]⟩
abbrev S10000x64 : Shape := ⟨2, ![10000, 64]⟩
abbrev S1 : Shape := ⟨1, ![1]⟩
abbrev S1x1 : Shape := ⟨2, ![1, 1]⟩
abbrev S3300000x64 : Shape := ⟨2, ![3300000, 64]⟩
abbrev S1x64 : Shape := ⟨2, ![1, 64]⟩
abbrev S100000x7 : Shape := ⟨2, ![100000, 7]⟩
abbrev S10000x7 : Shape := ⟨2, ![10000, 7]⟩
abbrev S3300000x7 : Shape := ⟨2, ![3300000, 7]⟩
abbrev S1x7 : Shape := ⟨2, ![1, 7]⟩

abbrev nBuf : Space → Nat
  | .hbm => 111
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64x7, .f32⟩
  | .hbm, ⟨6, _⟩ => ⟨S7, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x64, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S1, .i32⟩
  | .hbm, ⟨55, _⟩ => ⟨S_, .i32⟩
  | .hbm, ⟨56, _⟩ => ⟨S3300000x1, .i32⟩
  | .hbm, ⟨57, _⟩ => ⟨S3300000x1, .i1⟩
  | .hbm, ⟨58, _⟩ => ⟨S1x1, .i32⟩
  | .hbm, ⟨59, _⟩ => ⟨S3300000x1, .i32⟩
  | .hbm, ⟨60, _⟩ => ⟨S3300000x1, .i1⟩
  | .hbm, ⟨61, _⟩ => ⟨S3300000x1, .i1⟩
  | .hbm, ⟨62, _⟩ => ⟨S_, .i1⟩
  | .hbm, ⟨63, _⟩ => ⟨S3300000, .i1⟩
  | .hbm, ⟨64, _⟩ => ⟨S3300000x64, .f32⟩
  | .hbm, ⟨65, _⟩ => ⟨S3300000x64, .i1⟩
  | .hbm, ⟨66, _⟩ => ⟨S_, .f32⟩
  | .hbm, ⟨67, _⟩ => ⟨S3300000x64, .f32⟩
  | .hbm, ⟨68, _⟩ => ⟨S3300000x64, .f32⟩
  | .hbm, ⟨69, _⟩ => ⟨S3300000x1, .f32⟩
  | .hbm, ⟨70, _⟩ => ⟨S3300000x64, .f32⟩
  | .hbm, ⟨71, _⟩ => ⟨S3300000x64, .f32⟩
  | .hbm, ⟨72, _⟩ => ⟨S_, .f32⟩
  | .hbm, ⟨73, _⟩ => ⟨S100000x64, .f32⟩
  | .hbm, ⟨74, _⟩ => ⟨S3300000x1, .i32⟩
  | .hbm, ⟨75, _⟩ => ⟨S100000x64, .f32⟩
  | .hbm, ⟨76, _⟩ => ⟨S1x64, .f32⟩
  | .hbm, ⟨77, _⟩ => ⟨S100000x7, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S1, .i32⟩
  | .hbm, ⟨87, _⟩ => ⟨S_, .i32⟩
  | .hbm, ⟨88, _⟩ => ⟨S3300000x1, .i32⟩
  | .hbm, ⟨89, _⟩ => ⟨S3300000x1, .i1⟩
  | .hbm, ⟨90, _⟩ => ⟨S1x1, .i32⟩
  | .hbm, ⟨91, _⟩ => ⟨S3300000x1, .i32⟩
  | .hbm, ⟨92, _⟩ => ⟨S3300000x1, .i1⟩
  | .hbm, ⟨93, _⟩ => ⟨S3300000x1, .i1⟩
  | .hbm, ⟨94, _⟩ => ⟨S_, .i1⟩
  | .hbm, ⟨95, _⟩ => ⟨S3300000, .i1⟩
  | .hbm, ⟨96, _⟩ => ⟨S3300000x7, .f32⟩
  | .hbm, ⟨97, _⟩ => ⟨S3300000x7, .i1⟩
  | .hbm, ⟨98, _⟩ => ⟨S_, .f32⟩
  | .hbm, ⟨99, _⟩ => ⟨S3300000x7, .f32⟩
  | .hbm, ⟨100, _⟩ => ⟨S3300000x7, .f32⟩
  | .hbm, ⟨101, _⟩ => ⟨S3300000x1, .f32⟩
  | .hbm, ⟨102, _⟩ => ⟨S3300000x7, .f32⟩
  | .hbm, ⟨103, _⟩ => ⟨S3300000x7, .f32⟩
  | .hbm, ⟨104, _⟩ => ⟨S_, .f32⟩
  | .hbm, ⟨105, _⟩ => ⟨S100000x7, .f32⟩
  | .hbm, ⟨106, _⟩ => ⟨S3300000x1, .i32⟩
  | .hbm, ⟨107, _⟩ => ⟨S100000x7, .f32⟩
  | .hbm, ⟨108, _⟩ => ⟨S1x7, .f32⟩
  | .hbm, ⟨109, _⟩ => ⟨S100000x7, .f32⟩
  | .hbm, ⟨110, _⟩ => ⟨S100000x7, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x7, .f32⟩
  | .local _ .vmem, ⟨9, _⟩ => ⟨S10000x7, .f32⟩
  | .local _ .vmem, ⟨10, _⟩ => ⟨S10000x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_6 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x64_0 : S3300000.BroadcastsInDim S3300000x64 (![0] : Fin 1 → Fin S3300000x64.rank)
  bcast_S_S3300000x64 : S_.BroadcastsInDim S3300000x64 (![] : Fin 0 → Fin S3300000x64.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x7_S64x7_0_0 : ∀ a, (![0, 0] : Fin 2 → Nat) a + S64x7.size a ≤ S64x7.size a
  h_S64x7 : 0 < S64x7.numel
  inb_S10000x7_S10000x7_0_0 : ∀ a, (![0, 0] : Fin 2 → Nat) a + S10000x7.size a ≤ S10000x7.size a
  h_S10000x7 : 0 < S10000x7.numel
  bcast_S3300000_S3300000x7_0 : S3300000.BroadcastsInDim S3300000x7 (![0] : Fin 1 → Fin S3300000x7.rank)
  bcast_S_S3300000x7 : S_.BroadcastsInDim S3300000x7 (![] : Fin 0 → Fin S3300000x7.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x64_S10000x64_1_0_0_1_n_n_wf : DotDims.WF S10000x256 S256x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x7_S10000x7_1_0_0_1_n_n_wf : DotDims.WF S10000x64 S64x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x7.size a ≤ S64x7.size a
  hwx1_2 : ∀ i : grid1.Coords, EltTy.bits .f32 = 32 ∨ (Rect.block (s := S64x7) S64x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x7.size a ≤ S100000x7.size a
  hwx1_3 : ∀ i : grid1.Coords, EltTy.bits .f32 = 32 ∨ (Rect.block (s := S100000x7) S10000x7.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x7_S10000x7_1_0_0_1_n_n : DotDims S10000x64 S64x7 S10000x7 where
  lhsContracting := [1]
  rhsContracting := [0]
  lhsNonContracting := [0]
  rhsNonContracting := [1]
  lhsBatch := []
  rhsBatch := []
  wf := dot_S10000x64_S64x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S10000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x7 : Shape := ⟨2, ![64, 7]⟩
abbrev S7 : Shape := ⟨1, ![7]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 88
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64x7, .f32⟩
  | .hbm, ⟨6, _⟩ => ⟨S7, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x64, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x7, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x7, .f32⟩
  | .hbm, ⟨78, _⟩ => ⟨S3300000x1, .f32⟩
  | .hbm, ⟨79, _⟩ => ⟨S3300000x7, .f32⟩
  | .hbm, ⟨80, _⟩ => ⟨S3300000x7, .f32⟩
  | .hbm, ⟨81, _⟩ => ⟨S_, .f32⟩
  | .hbm, ⟨82, _⟩ => ⟨S100000x7, .f32⟩
  | .hbm, ⟨83, _⟩ => ⟨S3300000x1, .i32⟩
  | .hbm, ⟨84, _⟩ => ⟨S100000x7, .f32⟩
  | .hbm, ⟨85, _⟩ => ⟨S1x7, .f32⟩
  | .hbm, ⟨86, _⟩ => ⟨S100000x7, .f32⟩
  | .hbm, ⟨87, _⟩ => ⟨S100000x7, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x7_S100000x7_1_0_0_1_n_n_wf : DotDims.WF S100000x64 S64x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.SrcRange.lean ====
import proofs.«410477_j28424093565729_3_alg».proof.Defs
import proofs.«410477_j28424093565729_3_alg».proof.Proof.Gen.KernelIdeal
import proofs.«410477_j28424093565729_3_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.SrcRange

open Cert.KernelIdeal Idealize.ShloMosaic Idealize.ShloMosaic.TcCoe Idealize.SL.Sem
open Cert.KernelIdeal.Facts Cert.KernelIdeal.Facts₀

/-- The source id of every edge: row 0 of the edge list, then one self loop per node (node p's own id p). -/
def srcIds (ei : IVec S2x3200000 32) : IVec S3300000 32 :=
  concatenate S3300000 0
    [⟨S3200000, shapeCast S3200000 (extractStridedSlice S1x3200000 ![0, 0] ei slices_S2x3200000_S1x3200000_0_0) shapeCasts_S1x3200000_S3200000⟩,
     ⟨S100000, iotaInDim S100000 32 0⟩] concatenates_S3200000_S100000_S3300000_d0

/-! ### Words: a signed word in [0, 100000) is below 100000 unsigned -/

/-- A word that is non-negative as a signed number is below 2³¹ as an unsigned one: its sign bit is clear. -/
theorem toNat_lt_of_sge_zero (w : BitVec 32) (h0 : IntOp.cmpi .sge w 0#32 = 1#1) : w.toNat < 2 ^ 31 := by
  unfold IntOp.cmpi at h0
  rw [StableHlo.Predicate.ofBool_eq_one_iff] at h0
  have h1 : (0#32 : BitVec 32).toInt ≤ w.toInt := by simpa [BitVec.sle] using h0
  have h2 : (0#32 : BitVec 32).toInt = 0 := by decide
  rw [h2, BitVec.toInt_eq_toNat_cond] at h1
  have := w.isLt
  split at h1 <;> omega

/-- Signed 0 ≤ w < 100000 gives w < 100000 unsigned. -/
theorem word_lt (w : BitVec 32) (h0 : IntOp.cmpi .sge w 0#32 = 1#1) (h1 : IntOp.cmpi .slt w 100000#32 = 1#1) :
    w.toNat < 100000 := by
  have hw := toNat_lt_of_sge_zero w h0
  have h := (StableHlo.Predicate.slt_iff_toNat hw (by decide)).1 h1
  exact h

/-- The scalar shape has one index. -/
instance : Subsingleton S_.Idx := ⟨fun a b => funext fun d => d.elim0⟩

/-- The precondition's last conjunct, read back: every sliced source id is a node id. -/
theorem ids_lt (m : (ℓ : Loc nD τ sig) → Buf (Elt Ideal) ℓ) (h : Cert.Pre_KernelIdeal m) (c : Dev nD) (i : S3200000.Idx) :
    (shapeCast S3200000 (extractStridedSlice S1x3200000 ![0, 0] (m ((c.tc : Thread nD τ).loc main_arg1))
      slices_S2x3200000_S1x3200000_0_0) shapeCasts_S1x3200000_S3200000 i).toNat < 100000 := by
  have e := congrFun (h c) ValueIdx.ix0
  dsimp only [Cert.Pre_finite_inputs.fn, Cert.Pre_finite_inputs.fn_part1, Cert.Pre_finite_inputs.fn_part2] at e
  have e2 := (IntOp.andi_eq_one.1 e).2
  have e3 := Host.reduce_andi_all _ _ _ _ _ e2 i
  obtain ⟨h0, h1⟩ := IntOp.andi_eq_one.1 e3
  exact word_lt _ h0 h1

/-- Under the precondition every source id, the appended self loops included, is a node id: below 100000 as an unsigned
    word (so also non-negative as a signed one). -/
theorem srcIds_lt (m : (ℓ : Loc nD τ sig) → Buf (Elt Ideal) ℓ) (h : Cert.Pre_KernelIdeal m) (c : Dev nD) (e : S3300000.Idx) :
    (srcIds (m ((c.tc : Thread nD τ).loc main_arg1)) e).toNat < 100000 := by
  have hids := ids_lt m h c
  have he : (e 0).val < 3300000 := (e 0).isLt
  by_cases hlt : (e 0).val < 3200000
  · -- an entry before position 3200000 is a sliced id
    have hread : srcIds (m ((c.tc : Thread nD τ).loc main_arg1)) e
        = shapeCast S3200000 (extractStridedSlice S1x3200000 ![0, 0] (m ((c.tc : Thread nD τ).loc main_arg1))
            slices_S2x3200000_S1x3200000_0_0) shapeCasts_S1x3200000_S3200000 (ValueIdx.ix1 ⟨(e 0).val, hlt⟩) :=
      concatenate_pair_apply_left (t := S3300000) (s₁ := S3200000) (s₂ := S100000) (0 : Fin 1) _ _ concatenates_S3200000_S100000_S3300000_d0 e rfl
        (ValueIdx.ix1 ⟨(e 0).val, hlt⟩) (fun b => by match b with | ⟨0, _⟩ => rfl)
    rw [hread]
    exact hids _
  · -- an entry from position 3200000 on is a self loop: node (position − 3200000)'s own id
    have hge : 3200000 ≤ (e 0).val := Nat.le_of_not_lt hlt
    have hp : (e 0).val - 3200000 < 100000 := by omega
    have hread : srcIds (m ((c.tc : Thread nD τ).loc main_arg1)) e
        = iotaInDim S100000 32 0 (ValueIdx.ix1 ⟨(e 0).val - 3200000, hp⟩) :=
      concatenate_pair_apply_right (t := S3300000) (s₁ := S3200000) (s₂ := S100000) (0 : Fin 1) _ _ concatenates_S3200000_S100000_S3300000_d0 e rfl rfl
        (ValueIdx.ix1 ⟨(e 0).val - 3200000, hp⟩) (fun b hb => by
          exfalso; apply hb
          apply Fin.ext
          have hb1 : b.val < 1 := b.isLt
          show b.val = 0
          omega)
        (by show (e 0).val - 3200000 + 3200000 = (e 0).val; omega)
    rw [hread]
    show (BitVec.ofNat 32 ((e 0).val - 3200000)).toNat < 100000
    rw [BitVec.toNat_ofNat]
    exact lt_of_le_of_lt (Nat.mod_le _ _) hp

/-- The ids as a column of start indices, a negative id first moved up by the table's 100000 rows. -/
def wrapCol (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- Per edge: is its start index a row of the table, 0 ≤ index ≤ 99999? -/
def inRangeMask (idx : IVec S3300000x1 32) : IVec S3300000 1 :=
  Host.reduce IntOp.andi
    (andi (cmpi .sge idx (broadcastInDim S3300000x1 ![] bcast_S_S3300000x1 (constantI S_ 32 0#32)))
      (cmpi .sle idx (broadcastInDim S3300000x1 ![0, 1] bcast_S1x1_S3300000x1_0_1 (broadcastInDim S1x1 ![1] bcast_S1_S1x1_1 (constantI S1 32 99999#32)))))
    (constantI S_ 1 1#1) reducesTo_S3300000x1_S3300000_d1 h_S_

/-- A node id is not negative as a signed word, so the wrap leaves it alone, and it passes 0 ≤ · ≤ 99999. -/
theorem word_in_range (w : BitVec 32) (hw : w.toNat < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have hw31 : w.toNat < 2 ^ 31 := by omega
  have hneg : ¬ IntOp.cmpi .slt w 0#32 = 1#1 := fun hc => by
    have := (StableHlo.Predicate.slt_iff_toNat hw31 (by decide)).1 hc
    exact absurd this (Nat.not_lt_zero _)
  have hsel : Scalar.select (IntOp.cmpi .slt w 0#32) (IntOp.addi w 100000#32) w = w := by
    unfold Scalar.select
    exact if_neg hneg
  rw [hsel]
  refine IntOp.andi_eq_one.2 ⟨(StableHlo.Predicate.sge_iff_toNat hw31 (by decide)).2 (Nat.zero_le _), ?_⟩
  refine (StableHlo.Predicate.sle_iff_toNat hw31 (by decide)).2 ?_
  show w.toNat ≤ 99999
  omega

/-- A left fold by `and` from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    exact foldl_andi_ones f l _ (IntOp.andi_eq_one.2 ⟨hi, hl a (List.mem_cons_self ..)⟩)
      (fun n hn => hl n (List.mem_cons_of_mem _ hn))

/-- Ids that are node ids give start indices that are all rows of the table. -/
theorem inRangeMask_wrapCol (s : IVec S3300000 32) (hs : ∀ e, (s e).toNat < 100000) :
    inRangeMask (wrapCol s) = fun _ => 1#1 := by
  funext j
  unfold inRangeMask
  rw [Host.reduce_eq_foldl]
  refine foldl_andi_ones _ _ _ rfl (fun i _ => ?_)
  exact word_in_range _ (hs _)

/-- A row mask of ones, laid along the 64 columns, selects the first array everywhere. -/
theorem select_ones64 (a b : FVec Ideal S3300000x64 .f32) :
    select (broadcastInDim S3300000x64 ![0] bcast_S3300000_S3300000x64_0 (fun _ => 1#1 : IVec S3300000 1)) a b = a := by
  funext i
  show Scalar.select (1#1 : BitVec 1) (a i) (b i) = a i
  unfold Scalar.select
  exact if_pos rfl

/-- The same along the 7 columns. -/
theorem select_ones7 (a b : FVec Ideal S3300000x7 .f32) :
    select (broadcastInDim S3300000x7 ![0] bcast_S3300000_S3300000x7_0 (fun _ => 1#1 : IVec S3300000 1)) a b = a := by
  funext i
  show Scalar.select (1#1 : BitVec 1) (a i) (b i) = a i
  unfold Scalar.select
  exact if_pos rfl

end Cert.KernelIdeal.SrcRange

end
-- ==== Proof.Walk.lean ====
/-
  The program between its two dense layers is a chain of host operations, read here one stretch at a time from ANY
  contents V of the buffers when the stretch starts: what the stretch's result buffer holds afterwards, as the
  operations' composed function of what V held in the buffers the stretch reads.

  The first stretch builds, from the edge list and the edge weights, the source ids and target ids with one self loop
  per node appended, and the symmetric normalisation w · d(src)^(-1/2) · d(dst)^(-1/2) of the weights (d the weighted
  in-degree clamped below); these are the same operations as the reference's, so they are stated against the
  reference's own stages. A "take" stretch gathers one table row per edge by source id and replaces the rows of
  out-of-range ids by a filler; an "aggregate" stretch scales each gathered row by its edge's normalised weight and
  sums the rows by target id; the last one also adds the bias.
-/
import proofs.«410477_j28424093565729_3_alg».proof.Proof.Gen.KernelIdeal.Launch
import proofs.«410477_j28424093565729_3_alg».proof.Proof.Gen.ReferenceIdeal.Read
import proofs.«410477_j28424093565729_3_alg».proof.Proof.SrcRange
import Idealize.ShloMosaic.Lib.StableHlo.Run
import Idealize.ShloMosaic.Lib.Pipeline.Frame

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.KernelIdeal.SrcRange

variable {F : FTy → Type} [FloatOps F]

/-! ## The first stretch: ids and normalised weights -/

set_option maxHeartbeats 8000000 in
/-- The source ids, self loops appended. -/
theorem src_eq (V : Valuation τ sig (Elt F)) :
    StableHlo.after (hostOps0 (F := F)) V (Proc.devRef .tc main_v5)
      = Cert.ReferenceIdeal.Read.val_main_v5 (F := F) (V (Proc.devRef .tc main_arg1)) := by
  after_results_simp
  rfl

set_option maxHeartbeats 8000000 in
/-- The target ids, self loops appended. -/
theorem dst_eq (V : Valuation τ sig (Elt F)) :
    StableHlo.after (hostOps0 (F := F)) V (Proc.devRef .tc main_v6)
      = Cert.ReferenceIdeal.Read.val_main_v6 (F := F) (V (Proc.devRef .tc main_arg1)) := by
  after_results_simp
  rfl

set_option maxHeartbeats 16000000 in
/-- The normalised edge weights. -/
theorem wnorm_eq (V : Valuation τ sig (Elt F)) :
    StableHlo.after (hostOps0 (F := F)) V (Proc.devRef .tc main_v30)
      = Cert.ReferenceIdeal.Read.val_main_v30 (F := F) (V (Proc.devRef .tc main_arg1)) (V (Proc.devRef .tc main_arg2)) := by
  after_results_simp
  rfl

/-! ## The two takes

  A take is nineteen operations that build the start indices, their in-range mask and the gathered rows, then four
  that lay the mask along the columns and select between the rows and the filler. -/

set_option maxHeartbeats 8000000 in
/-- After the stretch's first nineteen operations: the in-range mask of the start indices. -/
theorem mask64_eq (V : Valuation τ sig (Elt F)) :
    StableHlo.after ((hostOps1 (F := F)).take 19) V (Proc.devRef .tc main_call0_v12)
      = inRangeMask (wrapCol (V (Proc.devRef .tc main_v5))) := by
  unfold inRangeMask wrapCol
  simp only [hostOps1, List.take_succ_cons, List.take_zero]
  after_results_simp
  simp only [TRef.toBuf, TRef.ofBuf]
  simp only [cast_cast]
  simp only [cast_eq]

set_option maxHeartbeats 8000000 in
/-- After the stretch's first nineteen operations: one table row per edge, by start index. -/
theorem rows64_eq (V : Valuation τ sig (Elt F)) :
    StableHlo.after ((hostOps1 (F := F)).take 19) V (Proc.devRef .tc main_call0_v13)
      = Host.gather gather_S100000x64_S3300000x1_S3300000x64_1_0_n_n_0_1_164 (V (Proc.devRef .tc main_v31)) (wrapCol (V (Proc.devRef .tc main_v5))) := by
  unfold wrapCol
  simp only [hostOps1, List.take_succ_cons, List.take_zero]
  after_results_simp
  simp only [TRef.toBuf, TRef.ofBuf]
  simp only [cast_cast]
  simp only [cast_eq]

set_option maxHeartbeats 8000000 in
/-- The stretch's last four operations: the mask laid along the columns selects between the rows and the filler. -/
theorem pick64_eq (V : Valuation τ sig (Elt F)) :
    StableHlo.after ((hostOps1 (F := F)).drop 19) V (Proc.devRef .tc main_v32)
      = select (broadcastInDim S3300000x64 ![0] bcast_S3300000_S3300000x64_0 (V (Proc.devRef .tc main_call0_v12)))
          (V (Proc.devRef .tc main_call0_v13))
          (broadcastInDim S3300000x64 ![] bcast_S_S3300000x64 (constant S_ .f32 0x7FC00000#32)) := by
  simp only [hostOps1, List.drop_succ_cons, List.drop_zero]
  after_results_simp
  rfl

/-- Rows of the 64-column table by source id, the filler where the id is out of range. -/
theorem take64_eq (V : Valuation τ sig (Elt F)) :
    StableHlo.after (hostOps1 (F := F)) V (Proc.devRef .tc main_v32)
      = select (broadcastInDim S3300000x64 ![0] bcast_S3300000_S3300000x64_0 (inRangeMask (wrapCol (V (Proc.devRef .tc main_v5)))))
          (Host.gather gather_S100000x64_S3300000x1_S3300000x64_1_0_n_n_0_1_164 (V (Proc.devRef .tc main_v31)) (wrapCol (V (Proc.devRef .tc main_v5))))
          (broadcastInDim S3300000x64 ![] bcast_S_S3300000x64 (constant S_ .f32 0x7FC00000#32)) := by
  rw [← List.take_append_drop 19 (hostOps1 (F := F)), StableHlo.after_append, pick64_eq, mask64_eq, rows64_eq]

set_option maxHeartbeats 8000000 in
/-- After the stretch's first nineteen operations: the in-range mask of the start indices. -/
theorem mask7_eq (V : Valuation τ sig (Elt F)) :
    StableHlo.after ((hostOps2 (F := F)).take 19) V (Proc.devRef .tc main_call1_v12)
      = inRangeMask (wrapCol (V (Proc.devRef .tc main_v5))) := by
  unfold inRangeMask wrapCol
  simp only [hostOps2, List.take_succ_cons, List.take_zero]
  after_results_simp
  simp only [TRef.toBuf, TRef.ofBuf]
  simp only [cast_cast]
  simp only [cast_eq]

set_option maxHeartbeats 8000000 in
/-- After the stretch's first nineteen operations: one table row per edge, by start index. -/
theorem rows7_eq (V : Valuation τ sig (Elt F)) :
    StableHlo.after ((hostOps2 (F := F)).take 19) V (Proc.devRef .tc main_call1_v13)
      = Host.gather gather_S100000x7_S3300000x1_S3300000x7_1_0_n_n_0_1_17 (V (Proc.devRef .tc main_v40)) (wrapCol (V (Proc.devRef .tc main_v5))) := by
  unfold wrapCol
  simp only [hostOps2, List.take_succ_cons, List.take_zero]
  after_results_simp
  simp only [TRef.toBuf, TRef.ofBuf]
  simp only [cast_cast]
  simp only [cast_eq]

set_option maxHeartbeats 8000000 in
/-- The stretch's last four operations: the mask laid along the columns selects between the rows and the filler. -/
theorem pick7_eq (V : Valuation τ sig (Elt F)) :
    StableHlo.after ((hostOps2 (F := F)).drop 19) V (Proc.devRef .tc main_v41)
      = select (broadcastInDim S3300000x7 ![0] bcast_S3300000_S3300000x7_0 (V (Proc.devRef .tc main_call1_v12)))
          (V (Proc.devRef .tc main_call1_v13))
          (broadcastInDim S3300000x7 ![] bcast_S_S3300000x7 (constant S_ .f32 0x7FC00000#32)) := by
  simp only [hostOps2, List.drop_succ_cons, List.drop_zero]
  after_results_simp
  rfl

/-- Rows of the 7-column table by source id, the filler where the id is out of range. -/
theorem take7_eq (V : Valuation τ sig (Elt F)) :
    StableHlo.after (hostOps2 (F := F)) V (Proc.devRef .tc main_v41)
      = select (broadcastInDim S3300000x7 ![0] bcast_S3300000_S3300000x7_0 (inRangeMask (wrapCol (V (Proc.devRef .tc main_v5)))))
          (Host.gather gather_S100000x7_S3300000x1_S3300000x7_1_0_n_n_0_1_17 (V (Proc.devRef .tc main_v40)) (wrapCol (V (Proc.devRef .tc main_v5))))
          (broadcastInDim S3300000x7 ![] bcast_S_S3300000x7 (constant S_ .f32 0x7FC00000#32)) := by
  rw [← List.take_append_drop 19 (hostOps2 (F := F)), StableHlo.after_append, pick7_eq, mask7_eq, rows7_eq]

/-! ## The two aggregations -/

set_option maxHeartbeats 8000000 in
/-- The hidden layer's aggregate: the taken rows scaled by the normalised weights, summed by target id from zero. -/
theorem agg64_eq (V : Valuation τ sig (Elt F)) :
    StableHlo.after (hostOps1_1 (F := F)) V (Proc.devRef .tc main_v38)
      = Host.scatterAdd scatter_S100000x64_S3300000x1_S3300000x64_1_0_0_1
          (broadcastInDim S100000x64 ![] bcast_S_S100000x64 (constant S_ .f32 0x00000000#32))
          (broadcastInDim S3300000x1 ![0] bcast_S3300000_S3300000x1_0 (V (Proc.devRef .tc main_v6)))
          (mulf (V (Proc.devRef .tc main_v32))
            (broadcastInDim S3300000x64 ![0, 1] bcast_S3300000x1_S3300000x64_0_1
              (broadcastInDim S3300000x1 ![0] bcast_S3300000_S3300000x1_0 (V (Proc.devRef .tc main_v30))))) := by
  after_results_simp

set_option maxHeartbeats 8000000 in
/-- The hidden layer's bias kept as a 1 × 64 row. -/
theorem biasRow_eq (V : Valuation τ sig (Elt F)) :
    StableHlo.after (hostOps1_1 (F := F)) V (Proc.devRef .tc main_v39)
      = shapeCast S1x64 (V (Proc.devRef .tc main_arg4)) shapeCasts_S64_S1x64 := by
  after_results_simp
  rfl

set_option maxHeartbeats 8000000 in
/-- The output layer's aggregate plus its bias laid along the rows. -/
theorem out_eq (V : Valuation τ sig (Elt F)) :
    StableHlo.after (hostOps2_1 (F := F)) V (Proc.devRef .tc main_v50)
      = addf
          (Host.scatterAdd scatter_S100000x7_S3300000x1_S3300000x7_1_0_0_1
            (broadcastInDim S100000x7 ![] bcast_S_S100000x7 (constant S_ .f32 0x00000000#32))
            (broadcastInDim S3300000x1 ![0] bcast_S3300000_S3300000x1_0 (V (Proc.devRef .tc main_v6)))
            (mulf (V (Proc.devRef .tc main_v41))
              (broadcastInDim S3300000x7 ![0, 1] bcast_S3300000x1_S3300000x7_0_1
                (broadcastInDim S3300000x1 ![0] bcast_S3300000_S3300000x1_0 (V (Proc.devRef .tc main_v30))))))
          (broadcastInDim S100000x7 ![0, 1] bcast_S1x7_S100000x7_0_1
            (broadcastInDim S1x7 ![1] bcast_S7_S1x7_1 (V (Proc.devRef .tc main_arg6)))) := by
  after_results_simp

end Cert.KernelIdeal.Walk

end
-- ==== Proof.Kept.lean ====
/-
  A host operation writes one buffer, its result; every other buffer keeps its contents across it. So a buffer that
  none of a stretch's operations has for its result holds after the stretch what it held before: the edge ids, the
  normalised edge weights and the parameters are carried unchanged across the stretches that only read them.
-/
import proofs.«410477_j28424093565729_3_alg».proof.Proof.Gen.KernelIdeal.Launch
import Idealize.ShloMosaic.Lib.StableHlo.Run

noncomputable section

namespace Cert.KernelIdeal.Kept

open Cert.KernelIdeal Cert.KernelIdeal.Gen Idealize.ShloMosaic Idealize.ShloMosaic.TcCoe Idealize.SL.Sem

variable {F : FTy → Type} [FloatOps F]

/-- The one step every theorem below takes. Each operation of the stretch writes exactly one buffer, its result;
    the buffer `b` in question differs from each of those results because the two references differ (decided
    reference by reference), and distinct references of the TensorCore name distinct buffers. So no operation of
    the stretch writes `b`, and a buffer that no operation of a list writes holds after the list what it held. -/
local macro "kept_across " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ### The stretch `hostOps0` -/

theorem hostOps0_arg0 (V : Valuation τ sig (Elt F)) :
    StableHlo.after (hostOps0 (F := F)) V (Proc.devRef .tc main_arg0) = V (Proc.devRef .tc main_arg0) := by
  kept_across hostOps0

theorem hostOps0_arg3 (V : Valuation τ sig (Elt F)) :
    StableHlo.after (hostOps0 (F := F)) V (Proc.devRef .tc main_arg3) = V (Proc.devRef .tc main_arg3) := by
  kept_across hostOps0

theorem hostOps0_arg4 (V : Valuation τ sig (Elt F)) :
    StableHlo.after (hostOps0 (F := F)) V (Proc.devRef .tc main_arg4) = V (Proc.devRef .tc main_arg4) := by
  kept_across hostOps0

theorem hostOps0_arg5 (V : Valuation τ sig (Elt F)) :
    StableHlo.after (hostOps0 (F := F)) V (Proc.devRef .tc main_arg5) = V (Proc.devRef .tc main_arg5) := by
  kept_across hostOps0

theorem hostOps0_arg6 (V : Valuation τ sig (Elt F)) :
    StableHlo.after (hostOps0 (F := F)) V (Proc.devRef .tc main_arg6) = V (Proc.devRef .tc main_arg6) := by
  kept_across hostOps0

/-! ### The stretch `hostOps1` -/

theorem hostOps1_v5 (V : Valuation τ sig (Elt F)) :
    StableHlo.after (hostOps1 (F := F)) V (Proc.devRef .tc main_v5) = V (Proc.devRef .tc main_v5) := by
  kept_across hostOps1

theorem hostOps1_v6 (V : Valuation τ sig (Elt F)) :
    StableHlo.after (hostOps1 (F := F)) V (Proc.devRef .tc main_v6) = V (Proc.devRef .tc main_v6) := by
  kept_across hostOps1

theorem hostOps1_v30 (V : Valuation τ sig (Elt F)) :
    StableHlo.after (hostOps1 (F := F)) V (Proc.devRef .tc main_v30) = V (Proc.devRef .tc main_v30) := by
  kept_across hostOps1

theorem hostOps1_arg4 (V : Valuation τ sig (Elt F)) :
    StableHlo.after (hostOps1 (F := F)) V (Proc.devRef .tc main_arg4) = V (Proc.devRef .tc main_arg4) := by
  kept_across hostOps1

theorem hostOps1_arg5 (V : Valuation τ sig (Elt F)) :
    StableHlo.after (hostOps1 (F := F)) V (Proc.devRef .tc main_arg5) = V (Proc.devRef .tc main_arg5) := by
  kept_across hostOps1

theorem hostOps1_arg6 (V : Valuation τ sig (Elt F)) :
    StableHlo.after (hostOps1 (F := F)) V (Proc.devRef .tc main_arg6) = V (Proc.devRef .tc main_arg6) := by
  kept_across hostOps1

/-! ### The stretch `hostOps1_1` -/

theorem hostOps1_1_v5 (V : Valuation τ sig (Elt F)) :
    StableHlo.after (hostOps1_1 (F := F)) V (Proc.devRef .tc main_v5) = V (Proc.devRef .tc main_v5) := by
  kept_across hostOps1_1

theorem hostOps1_1_v6 (V : Valuation τ sig (Elt F)) :
    StableHlo.after (hostOps1_1 (F := F)) V (Proc.devRef .tc main_v6) = V (Proc.devRef .tc main_v6) := by
  kept_across hostOps1_1

theorem hostOps1_1_v30 (V : Valuation τ sig (Elt F)) :
    StableHlo.after (hostOps1_1 (F := F)) V (Proc.devRef .tc main_v30) = V (Proc.devRef .tc main_v30) := by
  kept_across hostOps1_1

theorem hostOps1_1_arg5 (V : Valuation τ sig (Elt F)) :
    StableHlo.after (hostOps1_1 (F := F)) V (Proc.devRef .tc main_arg5) = V (Proc.devRef .tc main_arg5) := by
  kept_across hostOps1_1

theorem hostOps1_1_arg6 (V : Valuation τ sig (Elt F)) :
    StableHlo.after (hostOps1_1 (F := F)) V (Proc.devRef .tc main_arg6) = V (Proc.devRef .tc main_arg6) := by
  kept_across hostOps1_1

/-! ### The stretch `hostOps2` -/

theorem hostOps2_v6 (V : Valuation τ sig (Elt F)) :
    StableHlo.after (hostOps2 (F := F)) V (Proc.devRef .tc main_v6) = V (Proc.devRef .tc main_v6) := by
  kept_across hostOps2

theorem hostOps2_v30 (V : Valuation τ sig (Elt F)) :
    StableHlo.after (hostOps2 (F := F)) V (Proc.devRef .tc main_v30) = V (Proc.devRef .tc main_v30) := by
  kept_across hostOps2

theorem hostOps2_arg6 (V : Valuation τ sig (Elt F)) :
    StableHlo.after (hostOps2 (F := F)) V (Proc.devRef .tc main_arg6) = V (Proc.devRef .tc main_arg6) := by
  kept_across hostOps2

end Cert.KernelIdeal.Kept

end
-- ==== Proof.Spec.lean ====
/-
  What the two dense layers of the graph network compute, entry by entry, over the extended reals.

  Layer 0 multiplies the node features by the first weight matrix: entry (p, j) of the product is the sum over
  the 256 feature columns q of x[p, q] · w[q, j]. Layer 1 first adds the bias row to the aggregated hidden
  features and clamps below at zero (the rectifier), then multiplies by the second weight matrix: entry (p, j) is
  the sum over the 64 hidden columns q of max(a[p, q] + r[0, q], 0) · w[q, j]. A sum over a finite index set in the
  extended reals does not depend on the order or grouping of its terms, so a product computed one block of rows at
  a time and a product computed whole have the same entries.
-/
import Idealize.ShloMosaic.PureOps.Ideal
import Idealize.ShloMosaic.Lib.StableHlo.Predicate

noncomputable section

namespace Cert.GcnSpec

open Idealize.ShloMosaic Idealize.ShloMosaic.StableHlo.Predicate

/-- An n × m array of extended reals, indexed by (row, column). -/
abbrev Mat (n m : Nat) : Type := (⟨2, ![n, m]⟩ : Shape).Idx → EReal

/-- Features times weights: entry (p, j) is the sum over q of x[p, q] · w[q, j]. -/
def featProd (x : Mat 100000 256) (w : Mat 256 64) : Mat 100000 64 :=
  fun i => ∑ q : Fin 256, x (ij (i 0) q) * w (ij q (i 1))

/-- Bias row added, rectified, times weights: entry (p, j) is the sum over q of max(a[p, q] + r[0, q], 0) · w[q, j]. -/
def hiddenProd (a : Mat 100000 64) (r : Mat 1 64) (w : Mat 64 7) : Mat 100000 7 :=
  fun i => ∑ q : Fin 64, max (a (ij (i 0) q) + r (ij 0 q)) 0 * w (ij q (i 1))

end Cert.GcnSpec

end
-- ==== Proof.Region0.lean ====
import proofs.«410477_j28424093565729_3_alg».proof.Proof.Gen.KernelIdeal.Frame
import proofs.«410477_j28424093565729_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

open Idealize.ShloMosaic.StableHlo.Predicate (ij)

/-! ## The block matmul at an index

The body multiplies a [10000 × 256] block by the [256 × 64] weights into a zero accumulator. Over the extended
reals the narrowing of the operands is the identity and the product into zero is the plain sum over the one
contracted axis: entry (p, j) of the block product is the sum over q of x[p, q] · w[q, j]. -/

/-- Axis 0 of the left operand's index is the output's row. -/
theorem lhs_D_0 (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
/-- Axis 1 of the left operand's index is the contraction position. -/
theorem lhs_D_1 (i : S10000x64.Idx) (q : dot_S10000x256_S256x64_S10000x64_1_0_0_1_n_n.contr.Idx) :
    (dot_S10000x256_S256x64_S10000x64_1_0_0_1_n_n.lhsIdx i q 1).val = (q ⟨0, by decide⟩).val :=
  dot_S10000x256_S256x64_S10000x64_1_0_0_1_n_n.lhsIdx_val_of_single rfl i q
/-- Axis 0 of the right operand's index is the contraction position. -/
theorem rhs_D_0 (i : S10000x64.Idx) (q : dot_S10000x256_S256x64_S10000x64_1_0_0_1_n_n.contr.Idx) :
    (dot_S10000x256_S256x64_S10000x64_1_0_0_1_n_n.rhsIdx i q 0).val = (q ⟨0, by decide⟩).val :=
  dot_S10000x256_S256x64_S10000x64_1_0_0_1_n_n.rhsIdx_val_of_single rfl i q
/-- Axis 1 of the right operand's index is the output's column. -/
theorem rhs_D_1 (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- The left operand's index at output index `j` and contraction position `k`: (row of `j`, `k`). -/
abbrev lix (j : S10000x64.Idx) (k : Fin 256) : S10000x256.Idx := fun a => match a with
  | ⟨0, _⟩ => ⟨(j 0).val, (j 0).isLt⟩
  | ⟨1, _⟩ => ⟨k.val, k.isLt⟩
/-- The right operand's index: (`k`, column of `j`). -/
abbrev rix (j : S10000x64.Idx) (k : Fin 256) : S256x64.Idx := fun a => match a with
  | ⟨0, _⟩ => ⟨k.val, k.isLt⟩
  | ⟨1, _⟩ => ⟨(j 1).val, (j 1).isLt⟩

/-- The body's product read at an index: entry `j` is the sum over the 256 contraction positions of the
    left block at (row, k) times the right block at (k, column). -/
theorem pay_apply (x : Vec Ideal S10000x256 .f32) (w : Vec Ideal S256x64 .f32) (j : S10000x64.Idx) :
    k0_pay1 (F := Ideal) x w j = ∑ k : Fin 256, x (lix j k) * w (rix j k) := by
  unfold k0_pay1
  refine (Ideal.matmul_constant_zero_apply dot_S10000x256_S256x64_S10000x64_1_0_0_1_n_n none _ _ j).trans ?_
  rw [← Equiv.sum_comp (ValueIdx.contrEquiv1 dot_S10000x256_S256x64_S10000x64_1_0_0_1_n_n 256 rfl rfl).symm]
  refine Finset.sum_congr rfl fun k _ => ?_
  have hk := ValueIdx.contrEquiv1_symm_val dot_S10000x256_S256x64_S10000x64_1_0_0_1_n_n 256 rfl rfl k
  have el : dot_S10000x256_S256x64_S10000x64_1_0_0_1_n_n.lhsIdx j ((ValueIdx.contrEquiv1 dot_S10000x256_S256x64_S10000x64_1_0_0_1_n_n 256 rfl rfl).symm k) = lix j k := funext fun a => Fin.ext (by
    match a with
    | ⟨0, _⟩ => exact lhs_D_0 _ _
    | ⟨1, _⟩ => exact (lhs_D_1 _ _).trans hk)
  have er : dot_S10000x256_S256x64_S10000x64_1_0_0_1_n_n.rhsIdx j ((ValueIdx.contrEquiv1 dot_S10000x256_S256x64_S10000x64_1_0_0_1_n_n 256 rfl rfl).symm k) = rix j k := funext fun a => Fin.ext (by
    match a with
    | ⟨0, _⟩ => exact (rhs_D_0 _ _).trans hk
    | ⟨1, _⟩ => exact rhs_D_1 _ _)
  rw [el, er]
  rfl

/-! ## From blocks to the array

Point `t` of the grid of 10 stages rows 10000·t … 10000·t + 9999 of the features (all 256 columns), the whole
weight matrix, and writes back rows 10000·t … 10000·t + 9999 of the product (all 64 columns). Entry (p, j) of
the block product depends on row p of the block, that is on row 10000·t + p of the features, and on column j of
the weights: it is entry (10000·t + p, j) of the whole product. The ten row blocks tile the 100000 rows. -/

variable (V : (c : Dev nD) → (b : Ref sig .tc) → Buf (Elt Ideal) ((c : Thread nD τ).loc b))

theorem hz : (![0, 0] : Fin 2 → Nat) = fun _ => 0 := funext fun a => match a with
  | ⟨0, _⟩ => rfl
  | ⟨1, _⟩ => rfl

/-- The printed index maps over the grid: the features' and the product's block row is the point, their block
    column is 0; the weights' block is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t`, entry (p, q), is the features at (10000·t + p, q). -/
theorem xblk_apply (c : Dev nD) (t : Fin cfg0.N) (y : S10000x256.Idx) (k : S100000x256.Idx)
    (hk0 : (k 0).val = t.val * 10000 + (y 0).val) (hk1 : (k 1).val = (y 1).val) :
    (iblk0 V c 0 t : Vec Ideal S10000x256 .f32) y = (V c main_arg0 : S100000x256.Idx → EReal) k := by
  obtain ⟨e0, e1, -⟩ := idx_facts t
  unfold iblk0
  rw [View.read_apply]
  show (V c main_arg0 : S100000x256.Idx → EReal) _ = (V c main_arg0 : S100000x256.Idx → EReal) _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 256 + 1 * (y 1).val = (k 1).val; rw [e1, hk1]; omega

/-- The weights' block at every point is the weight matrix. -/
theorem wblk_apply (c : Dev nD) (t : Fin cfg0.N) (y : S256x64.Idx) (k : S256x64.Idx)
    (hk0 : (k 0).val = (y 0).val) (hk1 : (k 1).val = (y 1).val) :
    (iblk0 V c 1 t : Vec Ideal S256x64 .f32) y = (V c main_arg3 : S256x64.Idx → EReal) k := by
  obtain ⟨-, -, e2, e3, -⟩ := idx_facts t
  unfold iblk0
  rw [View.read_apply]
  show (V c main_arg3 : S256x64.Idx → EReal) _ = (V c main_arg3 : S256x64.Idx → EReal) _
  congr 1
  funext a
  apply Fin.ext
  match a with
  | ⟨0, _⟩ => show win0_1.index t (0 : Fin 2) * 256 + 1 * (y 0).val = (k 0).val; rw [e2, hk0]; omega
  | ⟨1, _⟩ => show win0_1.index t (1 : Fin 2) * 64 + 1 * (y 1).val = (k 1).val; rw [e3, hk1]; omega

/-- The block product of a row block of the features and the weights, at entry `j`, is the whole product at the
    entry `i` whose row is 10000·t + the row of `j` and whose column is that of `j`: the same 256 terms. -/
theorem block_entry (X : Cert.GcnSpec.Mat 100000 256) (W : Cert.GcnSpec.Mat 256 64) (t : Nat)
    (x : Vec Ideal S10000x256 .f32) (w : Vec Ideal S256x64 .f32)
    (hx : ∀ (y : S10000x256.Idx) (k : S100000x256.Idx), (k 0).val = t * 10000 + (y 0).val → (k 1).val = (y 1).val → x y = X k)
    (hw : ∀ (y k : S256x64.Idx), (k 0).val = (y 0).val → (k 1).val = (y 1).val → w y = W k)
    (j : S10000x64.Idx) (i : S100000x64.Idx) (hi0 : (i 0).val = t * 10000 + (j 0).val) (hi1 : (i 1).val = (j 1).val) :
    k0_pay1 (F := Ideal) x w j = Cert.GcnSpec.featProd X W i := by
  rw [pay_apply]
  unfold Cert.GcnSpec.featProd
  refine Finset.sum_congr rfl fun q _ => ?_
  rw [hx (lix j q) (ij (i 0) q) hi0 rfl, hw (rix j q) (ij q (i 1)) rfl hi1]

/-- What point `t` writes back is block `t` of the whole product. -/
theorem flushed_eq (c : Dev nD) (t : Fin cfg0.N) :
    (dat0 (F := Ideal) V c).flushed 2 t
      = ((cfg0.win 2).blk t).view.read (Elt Ideal) (Cert.GcnSpec.featProd (V c main_arg0) (V c main_arg3)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x64) hz]
  obtain ⟨-, -, -, -, e4, e5⟩ := idx_facts t
  funext j
  refine block_entry (V c main_arg0) (V c main_arg3) t.val (iblk0 V c 0 t) (iblk0 V c 1 t)
    (fun y k h0 h1 => xblk_apply V c t y k h0 h1) (fun y k h0 h1 => wblk_apply V c t y k h0 h1) j
    (((cfg0.win 2).blk t).view.emb j) ?_ ?_
  · show win0_2.index t (0 : Fin 2) * 10000 + 1 * (j 0).val = t.val * 10000 + (j 0).val
    rw [e4]; omega
  · show win0_2.index t (1 : Fin 2) * 64 + 1 * (j 1).val = (j 1).val
    rw [e5]; omega

/-- An index of the product is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Every entry of the product is written back by some point: row r by point r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- The product array after the region is the whole product of the features and the weights as the region found
    them: every point writes back its block of that one function, and the blocks cover the array. -/
theorem value (c : Dev nD) :
    (dat0 (F := Ideal) V c).arrAt 2 cfg0.N = Cert.GcnSpec.featProd (V c main_arg0) (V c main_arg3) :=
  (dat0 (F := Ideal) V c).arrAt_eq_of_cover 2 _ (fun t _ => flushed_eq V c t) cover

end Cert.KernelIdeal.Region0

end
-- ==== Proof.Region1.lean ====
/-
  The second dense layer, block by block.

  The region walks ten grid points. At point t the body sees rows 10000·t … 10000·t + 9999 of the aggregated hidden
  features (a [10000, 64] block), the whole bias row [1, 64] and the whole weight matrix [64, 7], and leaves in the
  output's block the product of the rectified, biased block with the weights: entry (p, j) of the block is the sum
  over the 64 hidden columns q of max(a[10000·t + p, q] + r[0, q], 0) · w[q, j]. That is entry (10000·t + p, j) of
  the specified product of the whole arrays, so each point writes back one block of ONE function of the arrays
  the region finds; the ten blocks are disjoint bands of rows that together cover all 100000 rows (row r lies in
  the band of point r / 10000), hence the output array after the region is that function.

  The changes of float format inside the body are the identity on the extended reals, the scalar zero the
  rectifier compares against is the extended real 0, and a matrix product into a zero accumulator is the plain
  sum over the contraction index.
-/
import proofs.«410477_j28424093565729_3_alg».proof.Proof.Gen.KernelIdeal.Frame
import proofs.«410477_j28424093565729_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx
open Idealize.ShloMosaic.StableHlo.Predicate (ij)

variable (V : (c : Dev nD) → (b : Ref sig .tc) → Buf (Elt Ideal) ((c : Thread nD τ).loc b))

/-! ## The matrix product's operand indices, axis by axis

  The product contracts the left operand's columns against the right operand's rows: at output index (p, j) and
  contraction index q the left operand is read at (p, q) and the right at (q, j). -/

/-- The left operand's row is the output's row. -/
theorem lhs_axis0 (i : S10000x7.Idx) (q : dot_S10000x64_S64x7_S10000x7_1_0_0_1_n_n.contr.Idx) :
    (dot_S10000x64_S64x7_S10000x7_1_0_0_1_n_n.lhsIdx i q 0).val = (i 0).val := by
  unfold DotDims.lhsIdx
  rw [dif_neg (show ¬(0 : Fin S10000x64.rank) ∈ dot_S10000x64_S64x7_S10000x7_1_0_0_1_n_n.lhsBatch by decide), dif_pos (show (0 : Fin S10000x64.rank) ∈ dot_S10000x64_S64x7_S10000x7_1_0_0_1_n_n.lhsNonContracting by decide)]
  rfl
/-- The left operand's column is the contraction index. -/
theorem lhs_axis1 (i : S10000x7.Idx) (q : dot_S10000x64_S64x7_S10000x7_1_0_0_1_n_n.contr.Idx) :
    (dot_S10000x64_S64x7_S10000x7_1_0_0_1_n_n.lhsIdx i q 1).val = (q ⟨0, by decide⟩).val :=
  dot_S10000x64_S64x7_S10000x7_1_0_0_1_n_n.lhsIdx_val_of_single rfl i q
/-- The right operand's row is the contraction index. -/
theorem rhs_axis0 (i : S10000x7.Idx) (q : dot_S10000x64_S64x7_S10000x7_1_0_0_1_n_n.contr.Idx) :
    (dot_S10000x64_S64x7_S10000x7_1_0_0_1_n_n.rhsIdx i q 0).val = (q ⟨0, by decide⟩).val :=
  dot_S10000x64_S64x7_S10000x7_1_0_0_1_n_n.rhsIdx_val_of_single rfl i q
/-- The right operand's column is the output's column. -/
theorem rhs_axis1 (i : S10000x7.Idx) (q : dot_S10000x64_S64x7_S10000x7_1_0_0_1_n_n.contr.Idx) :
    (dot_S10000x64_S64x7_S10000x7_1_0_0_1_n_n.rhsIdx i q 1).val = (i 1).val := by
  unfold DotDims.rhsIdx
  rw [dif_neg (show ¬(1 : Fin S64x7.rank) ∈ dot_S10000x64_S64x7_S10000x7_1_0_0_1_n_n.rhsBatch by decide), dif_pos (show (1 : Fin S64x7.rank) ∈ dot_S10000x64_S64x7_S10000x7_1_0_0_1_n_n.rhsNonContracting by decide)]
  rfl

/-- The block product at an index: the sum over the 64 hidden columns. -/
theorem matmul_block_apply (l : FVec Ideal S10000x64 .bf16) (r : FVec Ideal S64x7 .bf16) (p : Fin 10000) (j : Fin 7) :
    matmul dot_S10000x64_S64x7_S10000x7_1_0_0_1_n_n none l r (constant (F := Ideal) S10000x7 .f32 0x00000000#32) (ix2 p j)
      = ∑ q : Fin 64, l (ix2 p q) * r (ix2 q j) := by
  simp only [matmul]
  rw [Ideal.matmul_constant_zero_apply, ← Equiv.sum_comp (contrEquiv1 dot_S10000x64_S64x7_S10000x7_1_0_0_1_n_n 64 rfl rfl).symm]
  refine Finset.sum_congr rfl fun k _ => ?_
  have hk := contrEquiv1_symm_val dot_S10000x64_S64x7_S10000x7_1_0_0_1_n_n 64 rfl rfl k
  have el : dot_S10000x64_S64x7_S10000x7_1_0_0_1_n_n.lhsIdx (ix2 p j) ((contrEquiv1 dot_S10000x64_S64x7_S10000x7_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x7_S10000x7_1_0_0_1_n_n.rhsIdx (ix2 p j) ((contrEquiv1 dot_S10000x64_S64x7_S10000x7_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-- The body's arithmetic at row p, column j of a block: bias row added, clamped below at zero, times the weights. -/
theorem payload_apply (x0 : Vec Ideal S10000x64 .f32) (x1 : Vec Ideal S1x64 .f32) (x2 : Vec Ideal S64x7 .f32)
    (p : Fin 10000) (j : Fin 7) :
    k1_pay1 (F := Ideal) x0 x1 x2 (ix2 p j)
      = ∑ q : Fin 64, max (x0 (ix2 p q) + x1 (ix2 (0 : Fin 1) q)) 0 * x2 (ix2 q j) := by
  unfold k1_pay1
  refine (matmul_block_apply _ _ p j).trans ?_
  refine Finset.sum_congr rfl fun q _ => ?_
  rw [shapeCast_self, shapeCast_self]
  show max (x0 (ix2 p q) + broadcastTo S10000x64 x1 broadcasts_S1x64_S10000x64 (ix2 p q)) (Ideal.ofBits .f32 0x00000000#32) * x2 (ix2 q j) = _
  rw [broadcastTo_1b_ab_apply, Ideal.ofBits_zero_f32]

/-! ## One block of the output -/

/-- What the body computes at row p, column j of a block is the specified entry at array index i, as soon as row p of the
    feature block is row (i 0) of the features, the staged bias row is the bias row, and column j of the staged weights
    is column (i 1) of the weights. -/
theorem block_entry (A : Cert.GcnSpec.Mat 100000 64) (R : Cert.GcnSpec.Mat 1 64) (W : Cert.GcnSpec.Mat 64 7)
    (x0 : Vec Ideal S10000x64 .f32) (x1 : Vec Ideal S1x64 .f32) (x2 : Vec Ideal S64x7 .f32)
    (p : Fin 10000) (j : Fin 7) (i : S100000x7.Idx)
    (h0 : ∀ q : Fin 64, x0 (ix2 p q) = A (ij (i 0) q))
    (h1 : ∀ q : Fin 64, x1 (ix2 (0 : Fin 1) q) = R (ij 0 q))
    (h2 : ∀ q : Fin 64, x2 (ix2 q j) = W (ij q (i 1))) :
    k1_pay1 (F := Ideal) x0 x1 x2 (ix2 p j) = Cert.GcnSpec.hiddenProd A R W i := by
  rw [payload_apply]
  unfold Cert.GcnSpec.hiddenProd
  refine Finset.sum_congr rfl fun q _ => ?_
  rw [h0 q, h1 q, h2 q]

/-- An offset that is zero on both axes. -/
theorem zero_off : (![0, 0] : Fin 2 → Nat) = fun _ => 0 := funext fun a => by fin_cases a <;> rfl

/-- The windows' index maps over the ten grid points: the feature block and the output block are block row t, on the
    one block column; the bias row and the weights are their whole arrays at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the specified product of the arrays the region finds. -/
theorem flushed_eq (c : Dev nD) (t : Fin cfg1.N) :
    (dat1 (F := Ideal) V c).flushed 3 t
      = ((cfg1.win 3).blk t).view.read (Elt Ideal) (Cert.GcnSpec.hiddenProd (V c main_v38) (V c main_v39) (V c main_arg5)) := by
  show (cfg1.win 3).cut (grid1.coords t) ((dat1 (F := Ideal) V c).after 3 t) = _
  rw [after1_3]
  unfold out1_3
  rw [View.canon_unit_zero zero_off]
  simp only [View.ld_unit_zero (S := S10000x64) zero_off, View.ld_unit_zero (S := S1x64) zero_off, View.ld_unit_zero (S := S64x7) zero_off]
  obtain ⟨e00, e01, e10, e11, e20, e21, e30, e31⟩ := index_facts t
  funext y
  have hy0 : (y 0).val < 10000 := (y 0).isLt
  have hy1 : (y 1).val < 7 := (y 1).isLt
  have hx : win1_3.xinj (grid1.coords t) y = ix2 (⟨(y 0).val, hy0⟩ : Fin 10000) (⟨(y 1).val, hy1⟩ : Fin 7) :=
    funext fun a => by match a with | ⟨0, _⟩ => rfl | ⟨1, _⟩ => rfl
  show k1_pay1 (F := Ideal) (iblk1 V c 0 t) (iblk1 V c 1 t) (iblk1 V c 2 t) (win1_3.xinj (grid1.coords t) y)
      = Cert.GcnSpec.hiddenProd (V c main_v38) (V c main_v39) (V c main_arg5) (((cfg1.win 3).blk t).view.emb y)
  rw [hx]
  refine block_entry (V c main_v38) (V c main_v39) (V c main_arg5) (iblk1 V c 0 t) (iblk1 V c 1 t) (iblk1 V c 2 t)
    ⟨(y 0).val, hy0⟩ ⟨(y 1).val, hy1⟩ (((cfg1.win 3).blk t).view.emb y) ?_ ?_ ?_
  · intro q
    show V c main_v38 (((cfg1.win 0).blk t).view.emb (ix2 (⟨(y 0).val, hy0⟩ : Fin 10000) q)) = _
    refine congrArg (V c main_v38) (funext fun a => Fin.ext ?_)
    match a with
    | ⟨0, _⟩ =>
      show win1_0.index t (0 : Fin 2) * 10000 + 1 * (y 0).val = win1_3.index t (0 : Fin 2) * 10000 + 1 * (y 0).val
      omega
    | ⟨1, _⟩ =>
      show win1_0.index t (1 : Fin 2) * 64 + 1 * q.val = q.val
      omega
  · intro q
    show V c main_v39 (((cfg1.win 1).blk t).view.emb (ix2 (0 : Fin 1) q)) = _
    refine congrArg (V c main_v39) (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = q.val
      omega
  · intro q
    show V c main_arg5 (((cfg1.win 2).blk t).view.emb (ix2 q (⟨(y 1).val, hy1⟩ : Fin 7))) = _
    refine congrArg (V c main_arg5) (funext fun a => Fin.ext ?_)
    match a with
    | ⟨0, _⟩ =>
      show win1_2.index t (0 : Fin 2) * 64 + 1 * q.val = q.val
      omega
    | ⟨1, _⟩ =>
      show win1_2.index t (1 : Fin 2) * 7 + 1 * (y 1).val = win1_3.index t (1 : Fin 2) * 7 + 1 * (y 1).val
      omega

/-! ## The blocks cover the array -/

/-- An index of the output array lies in point t's block exactly when each coordinate lies in the block's range on
    its axis. -/
theorem mem_block (t : Fin cfg1.N) (i : S100000x7.Idx) :
    i ∈ ((cfg1.win 3).blk t).view.set ↔ ∀ a : Fin 2, win1_3.index t a * S10000x7.size a ≤ (i a).val ∧ (i a).val < win1_3.index t a * S10000x7.size a + S10000x7.size a := by
  show i ∈ ((View.whole main_v40).slice (win1_3.rect t)).set ↔ _
  rw [View.set_slice_whole, Rect.mem_set_unit]
  exact Iff.rfl

/-- Row r of the output lies in the block of the point numbered r / 10000, and every point writes its block back. -/
theorem cover (i : S100000x7.Idx) : ∃ t : Fin cfg1.N, (cfg1.win 3).flush t = true ∧ i ∈ ((cfg1.win 3).blk t).view.set := by
  have hi0 : (i 0).val < 100000 := (i 0).isLt
  have hi1 : (i 1).val < 7 := (i 1).isLt
  have ht : (i 0).val / 10000 < cfg1.N := by rw [show cfg1.N = 10 from N_1]; omega
  obtain ⟨-, -, -, -, -, -, e30, e31⟩ := index_facts ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, ht⟩ (1 : Fin 2) * 7 ≤ (i 1).val ∧ (i 1).val < win1_3.index ⟨(i 0).val / 10000, ht⟩ (1 : Fin 2) * 7 + 7
    omega

/-! ## The array after the region -/

/-- Every point writes back its block of the specified product and the blocks cover the array, so the array after the
    region is the specified product of the arrays the region found. -/
theorem value (c : Dev nD) :
    (dat1 (F := Ideal) V c).arrAt 3 cfg1.N = Cert.GcnSpec.hiddenProd (V c main_v38) (V c main_v39) (V c main_arg5) :=
  (dat1 (F := Ideal) V c).arrAt_eq_of_cover 3 (Cert.GcnSpec.hiddenProd (V c main_v38) (V c main_v39) (V c main_arg5))
    (fun t _ => flushed_eq V c t) cover

end Cert.KernelIdeal.Region1

end
-- ==== Proof.RefProducts.lean ====
import proofs.«410477_j28424093565729_3_alg».proof.Proof.Gen.ReferenceIdeal.Read
import proofs.«410477_j28424093565729_3_alg».proof.Proof.Gen.KernelIdeal
import proofs.«410477_j28424093565729_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefProducts

open Idealize.ShloMosaic
open Cert.KernelIdeal.Facts Cert.KernelIdeal.Facts₀

/-- The reference's first dense layer, one whole product of the features and the weights, has the entries of the
    specification: the sum over the 256 feature columns. -/
theorem featProd_eq (x : FVec Ideal Cert.ReferenceIdeal.S100000x256 .f32) (w : FVec Ideal Cert.ReferenceIdeal.S256x64 .f32) :
    Cert.GcnSpec.featProd x w = Cert.ReferenceIdeal.Read.val_main_v31 (F := Ideal) x w := by
  funext i
  rw [Cert.ReferenceIdeal.Read.val_main_v31_apply]
  unfold Cert.GcnSpec.featProd
  refine Finset.sum_congr rfl (fun q _ => ?_)
  -- the product's left factor is read at (row of i, q), its right factor at (q, column of i)
  have el : StableHlo.Predicate.ij (i 0) q = Cert.ReferenceIdeal.Read.lidx_main_v31 i q := by
    funext a; match a with | ⟨0, _⟩ => rfl | ⟨1, _⟩ => rfl
  have er : StableHlo.Predicate.ij q (i 1) = Cert.ReferenceIdeal.Read.ridx_main_v31 i q := by
    funext a; match a with | ⟨0, _⟩ => rfl | ⟨1, _⟩ => rfl
  exact congrArg₂ (· * ·) (congrArg x el) (congrArg w er)

/-- The reference's second dense layer — the bias laid along the rows and added, the rectifier, then one whole product
    with the weights — has the entries of the specification, the bias row being the bias vector kept as a 1 × 64 row. -/
theorem hiddenProd_eq (x0 : FVec Ideal Cert.ReferenceIdeal.S100000x256 .f32) (x1 : IVec Cert.ReferenceIdeal.S2x3200000 32)
    (x2 : FVec Ideal Cert.ReferenceIdeal.S3200000 .f32) (x3 : FVec Ideal Cert.ReferenceIdeal.S256x64 .f32)
    (x4 : FVec Ideal Cert.ReferenceIdeal.S64 .f32) (x5 : FVec Ideal Cert.ReferenceIdeal.S64x7 .f32) :
    Cert.GcnSpec.hiddenProd (Cert.ReferenceIdeal.Read.val_main_v44 (F := Ideal) x0 x1 x2 x3)
        (shapeCast Cert.KernelIdeal.S1x64 x4 shapeCasts_S64_S1x64) x5
      = Cert.ReferenceIdeal.Read.val_main_v49 (F := Ideal) x0 x1 x2 x3 x4 x5 := by
  funext i
  rw [Cert.ReferenceIdeal.Read.val_main_v49_apply]
  unfold Cert.GcnSpec.hiddenProd
  refine Finset.sum_congr rfl (fun q _ => ?_)
  rw [Cert.ReferenceIdeal.Read.val_main_v48_apply, Cert.ReferenceIdeal.Read.val_main_v47_apply,
    Cert.ReferenceIdeal.Read.val_main_call0_v0_apply, Cert.ReferenceIdeal.Read.val_main_call0_cst_apply,
    Cert.ReferenceIdeal.Read.val_main_v46_apply, Cert.ReferenceIdeal.Read.val_main_v45_apply]
  generalize Cert.ReferenceIdeal.Read.val_main_v44 (F := Ideal) x0 x1 x2 x3 = A
  -- the rectifier's zero word is the real 0; at the extended reals the maximum is max and the sum is +
  have hz : (FloatOps.ofBits .f32 0x00000000#32 : Ideal .f32) = 0 := Ideal.ofBits_zero_f32
  rw [Ideal.maximumf_def, Ideal.addf_def, hz]
  -- the left factor is read at (row of i, q), the right factor at (q, column of i)
  have el : StableHlo.Predicate.ij (i 0) q = Cert.ReferenceIdeal.Read.lidx_main_v49 i q := by
    funext a; match a with | ⟨0, _⟩ => rfl | ⟨1, _⟩ => rfl
  have er : StableHlo.Predicate.ij q (i 1) = Cert.ReferenceIdeal.Read.ridx_main_v49 i q := by
    funext a; match a with | ⟨0, _⟩ => rfl | ⟨1, _⟩ => rfl
  -- the bias kept as a 1 × 64 row reads, at (0, q), the bias vector at q: the same row-major position
  have eb : shapeCast Cert.KernelIdeal.S1x64 x4 shapeCasts_S64_S1x64 (StableHlo.Predicate.ij 0 q)
      = x4 (Cert.ReferenceIdeal.Read.idx_main_v45 (Cert.ReferenceIdeal.Read.idx_main_v46
          (Cert.ReferenceIdeal.Read.lidx_main_v49 i q))) := by
    refine (shapeCast_addUnit_apply (n := 1) ![64] x4 shapeCasts_S64_S1x64 (StableHlo.Predicate.ij 0 q)).trans ?_
    refine congrArg x4 (funext fun a => ?_)
    match a with | ⟨0, _⟩ => rfl
  rw [eb, ← el, ← er]
  rfl

end Cert.RefProducts

end
-- ==== Proof.KernelValue.lean ====
/-
  The kernel program's result, as a function of its arguments, IS the reference's.

  The program's run leaves in each buffer what a fold through its segments computes: a host stretch applies its
  operations to what it finds, a dense-layer region leaves its product in its output array and every other buffer
  alone. Walking that fold from the launch, level by level, each intermediate the program shares with the reference
  is shown to be the reference's own stage of the same arguments:
    * the source ids, target ids and normalised weights are the same operations on both sides;
    * the first region's array is the product of the features and the first weights, as the reference's one product is;
    * a take by source id: under the precondition every source id (a listed edge's, or an appended self loop's) is a
      node id, so the in-range mask is one everywhere, the filler for out-of-range ids is never selected, and the take
      is the plain gather of the reference;
    * scaling by the normalised weights and summing by target id are the same operations on both sides;
    * the second region's array is the bias-added, rectified aggregate times the second weights, as the reference's;
    * the second take, aggregation and bias are as the first.
-/
import proofs.«410477_j28424093565729_3_alg».proof.Proof.Gen.KernelIdeal.Frame
import proofs.«410477_j28424093565729_3_alg».proof.Proof.Gen.ReferenceIdeal.Read
import proofs.«410477_j28424093565729_3_alg».proof.Proof.Walk
import proofs.«410477_j28424093565729_3_alg».proof.Proof.Kept
import proofs.«410477_j28424093565729_3_alg».proof.Proof.Region0
import proofs.«410477_j28424093565729_3_alg».proof.Proof.Region1
import proofs.«410477_j28424093565729_3_alg».proof.Proof.SrcRange
import proofs.«410477_j28424093565729_3_alg».proof.Proof.RefProducts

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read
open Cert.KernelIdeal.SrcRange

variable (m : (ℓ : Loc nD τ sig) → Buf (Elt Ideal) ℓ) (ρ : Dev nD → PrngReg)

/-! ## The arguments as launched -/

/-- The node features. -/
abbrev X0 (c : Dev nD) : FVec Ideal S100000x256 .f32 := m ((c : Thread nD τ).loc main_arg0)
/-- The edge list: row 0 the source ids, row 1 the target ids. -/
abbrev X1 (c : Dev nD) : IVec S2x3200000 32 := m ((c : Thread nD τ).loc main_arg1)
/-- The edge weights. -/
abbrev X2 (c : Dev nD) : FVec Ideal S3200000 .f32 := m ((c : Thread nD τ).loc main_arg2)
/-- The first layer's weights. -/
abbrev X3 (c : Dev nD) : FVec Ideal S256x64 .f32 := m ((c : Thread nD τ).loc main_arg3)
/-- The first layer's bias. -/
abbrev X4 (c : Dev nD) : FVec Ideal S64 .f32 := m ((c : Thread nD τ).loc main_arg4)
/-- The second layer's weights. -/
abbrev X5 (c : Dev nD) : FVec Ideal S64x7 .f32 := m ((c : Thread nD τ).loc main_arg5)
/-- The second layer's bias. -/
abbrev X6 (c : Dev nD) : FVec Ideal S7 .f32 := m ((c : Thread nD τ).loc main_arg6)

/-! ## After the first stretch -/

theorem W1_src (c : Dev nD) : W1 m ρ c (Proc.devRef .tc main_v5) = val_main_v5 (F := Ideal) (X1 m c) :=
  Walk.src_eq (W0 m ρ c)
theorem W1_dst (c : Dev nD) : W1 m ρ c (Proc.devRef .tc main_v6) = val_main_v6 (F := Ideal) (X1 m c) :=
  Walk.dst_eq (W0 m ρ c)
theorem W1_wn (c : Dev nD) : W1 m ρ c (Proc.devRef .tc main_v30) = val_main_v30 (F := Ideal) (X1 m c) (X2 m c) :=
  Walk.wnorm_eq (W0 m ρ c)
theorem W1_x0 (c : Dev nD) : W1 m ρ c (Proc.devRef .tc main_arg0) = X0 m c := Kept.hostOps0_arg0 (W0 m ρ c)
theorem W1_x3 (c : Dev nD) : W1 m ρ c (Proc.devRef .tc main_arg3) = X3 m c := Kept.hostOps0_arg3 (W0 m ρ c)
theorem W1_x4 (c : Dev nD) : W1 m ρ c (Proc.devRef .tc main_arg4) = X4 m c := Kept.hostOps0_arg4 (W0 m ρ c)
theorem W1_x5 (c : Dev nD) : W1 m ρ c (Proc.devRef .tc main_arg5) = X5 m c := Kept.hostOps0_arg5 (W0 m ρ c)
theorem W1_x6 (c : Dev nD) : W1 m ρ c (Proc.devRef .tc main_arg6) = X6 m c := Kept.hostOps0_arg6 (W0 m ρ c)

/-! ## After the first region: the product of the features and the first weights -/

theorem W2_prod (c : Dev nD) :
    W2 m ρ c (Proc.devRef .tc main_v31) = val_main_v31 (F := Ideal) (X0 m c) (X3 m c) := by
  refine (W2_arr m ρ c 2).trans ((Region0.value (V1 m ρ) c).trans ?_)
  rw [show V1 m ρ c main_arg0 = X0 m c from W1_x0 m ρ c, show V1 m ρ c main_arg3 = X3 m c from W1_x3 m ρ c]
  exact Cert.RefProducts.featProd_eq _ _

theorem W2_src (c : Dev nD) : W2 m ρ c (Proc.devRef .tc main_v5) = val_main_v5 (F := Ideal) (X1 m c) :=
  (W2_of_ne m ρ c main_v5 (by decide)).trans (W1_src m ρ c)
theorem W2_dst (c : Dev nD) : W2 m ρ c (Proc.devRef .tc main_v6) = val_main_v6 (F := Ideal) (X1 m c) :=
  (W2_of_ne m ρ c main_v6 (by decide)).trans (W1_dst m ρ c)
theorem W2_wn (c : Dev nD) : W2 m ρ c (Proc.devRef .tc main_v30) = val_main_v30 (F := Ideal) (X1 m c) (X2 m c) :=
  (W2_of_ne m ρ c main_v30 (by decide)).trans (W1_wn m ρ c)
theorem W2_x4 (c : Dev nD) : W2 m ρ c (Proc.devRef .tc main_arg4) = X4 m c :=
  (W2_of_ne m ρ c main_arg4 (by decide)).trans (W1_x4 m ρ c)
theorem W2_x5 (c : Dev nD) : W2 m ρ c (Proc.devRef .tc main_arg5) = X5 m c :=
  (W2_of_ne m ρ c main_arg5 (by decide)).trans (W1_x5 m ρ c)
theorem W2_x6 (c : Dev nD) : W2 m ρ c (Proc.devRef .tc main_arg6) = X6 m c :=
  (W2_of_ne m ρ c main_arg6 (by decide)).trans (W1_x6 m ρ c)

/-! ## The source ids are node ids, so a take is a gather -/

/-- Every source id, self loops included, is below the table's 100000 rows. -/
theorem src_lt (h : Cert.Pre_KernelIdeal m) (c : Dev nD) (e : S3300000.Idx) :
    (val_main_v5 (F := Ideal) (X1 m c) e).toNat < 100000 :=
  srcIds_lt m h c e

/-- The in-range mask of the source ids' start indices is one everywhere. -/
theorem mask_ones (h : Cert.Pre_KernelIdeal m) (c : Dev nD) :
    inRangeMask (wrapCol (val_main_v5 (F := Ideal) (X1 m c))) = fun _ => 1#1 :=
  inRangeMask_wrapCol _ (src_lt m h c)

/-! ## After the first take and aggregation -/

theorem W3_take (h : Cert.Pre_KernelIdeal m) (c : Dev nD) :
    W3 m ρ c (Proc.devRef .tc main_v32) = val_main_v38 (F := Ideal) (X0 m c) (X1 m c) (X3 m c) := by
  refine (Walk.take64_eq (W2 m ρ c)).trans ?_
  rw [W2_src m ρ c, W2_prod m ρ c, mask_ones m h c, select_ones64]
  rfl

theorem W3_dst (c : Dev nD) : W3 m ρ c (Proc.devRef .tc main_v6) = val_main_v6 (F := Ideal) (X1 m c) :=
  (Kept.hostOps1_v6 (W2 m ρ c)).trans (W2_dst m ρ c)
theorem W3_src (c : Dev nD) : W3 m ρ c (Proc.devRef .tc main_v5) = val_main_v5 (F := Ideal) (X1 m c) :=
  (Kept.hostOps1_v5 (W2 m ρ c)).trans (W2_src m ρ c)
theorem W3_wn (c : Dev nD) : W3 m ρ c (Proc.devRef .tc main_v30) = val_main_v30 (F := Ideal) (X1 m c) (X2 m c) :=
  (Kept.hostOps1_v30 (W2 m ρ c)).trans (W2_wn m ρ c)
theorem W3_x4 (c : Dev nD) : W3 m ρ c (Proc.devRef .tc main_arg4) = X4 m c :=
  (Kept.hostOps1_arg4 (W2 m ρ c)).trans (W2_x4 m ρ c)
theorem W3_x5 (c : Dev nD) : W3 m ρ c (Proc.devRef .tc main_arg5) = X5 m c :=
  (Kept.hostOps1_arg5 (W2 m ρ c)).trans (W2_x5 m ρ c)
theorem W3_x6 (c : Dev nD) : W3 m ρ c (Proc.devRef .tc main_arg6) = X6 m c :=
  (Kept.hostOps1_arg6 (W2 m ρ c)).trans (W2_x6 m ρ c)

theorem W4_agg (h : Cert.Pre_KernelIdeal m) (c : Dev nD) :
    W4 m ρ c (Proc.devRef .tc main_v38) = val_main_v44 (F := Ideal) (X0 m c) (X1 m c) (X2 m c) (X3 m c) := by
  refine (Walk.agg64_eq (W3 m ρ c)).trans ?_
  rw [W3_dst m ρ c, W3_take m ρ h c, W3_wn m ρ c]
  rfl

theorem W4_biasRow (c : Dev nD) :
    W4 m ρ c (Proc.devRef .tc main_v39) = shapeCast S1x64 (X4 m c) shapeCasts_S64_S1x64 := by
  refine (Walk.biasRow_eq (W3 m ρ c)).trans ?_
  rw [W3_x4 m ρ c]

theorem W4_src (c : Dev nD) : W4 m ρ c (Proc.devRef .tc main_v5) = val_main_v5 (F := Ideal) (X1 m c) :=
  (Kept.hostOps1_1_v5 (W3 m ρ c)).trans (W3_src m ρ c)
theorem W4_dst (c : Dev nD) : W4 m ρ c (Proc.devRef .tc main_v6) = val_main_v6 (F := Ideal) (X1 m c) :=
  (Kept.hostOps1_1_v6 (W3 m ρ c)).trans (W3_dst m ρ c)
theorem W4_wn (c : Dev nD) : W4 m ρ c (Proc.devRef .tc main_v30) = val_main_v30 (F := Ideal) (X1 m c) (X2 m c) :=
  (Kept.hostOps1_1_v30 (W3 m ρ c)).trans (W3_wn m ρ c)
theorem W4_x5 (c : Dev nD) : W4 m ρ c (Proc.devRef .tc main_arg5) = X5 m c :=
  (Kept.hostOps1_1_arg5 (W3 m ρ c)).trans (W3_x5 m ρ c)
theorem W4_x6 (c : Dev nD) : W4 m ρ c (Proc.devRef .tc main_arg6) = X6 m c :=
  (Kept.hostOps1_1_arg6 (W3 m ρ c)).trans (W3_x6 m ρ c)

/-! ## After the second region: bias, rectifier, and the product with the second weights -/

theorem W5_prod (h : Cert.Pre_KernelIdeal m) (c : Dev nD) :
    W5 m ρ c (Proc.devRef .tc main_v40)
      = val_main_v49 (F := Ideal) (X0 m c) (X1 m c) (X2 m c) (X3 m c) (X4 m c) (X5 m c) := by
  refine (W5_arr m ρ c 3).trans ((Region1.value (V4 m ρ) c).trans ?_)
  rw [show V4 m ρ c main_v38 = val_main_v44 (F := Ideal) (X0 m c) (X1 m c) (X2 m c) (X3 m c) from W4_agg m ρ h c,
    show V4 m ρ c main_v39 = shapeCast S1x64 (X4 m c) shapeCasts_S64_S1x64 from W4_biasRow m ρ c,
    show V4 m ρ c main_arg5 = X5 m c from W4_x5 m ρ c]
  exact Cert.RefProducts.hiddenProd_eq _ _ _ _ _ _

theorem W5_src (c : Dev nD) : W5 m ρ c (Proc.devRef .tc main_v5) = val_main_v5 (F := Ideal) (X1 m c) :=
  (W5_of_ne m ρ c main_v5 (by decide)).trans (W4_src m ρ c)
theorem W5_dst (c : Dev nD) : W5 m ρ c (Proc.devRef .tc main_v6) = val_main_v6 (F := Ideal) (X1 m c) :=
  (W5_of_ne m ρ c main_v6 (by decide)).trans (W4_dst m ρ c)
theorem W5_wn (c : Dev nD) : W5 m ρ c (Proc.devRef .tc main_v30) = val_main_v30 (F := Ideal) (X1 m c) (X2 m c) :=
  (W5_of_ne m ρ c main_v30 (by decide)).trans (W4_wn m ρ c)
theorem W5_x6 (c : Dev nD) : W5 m ρ c (Proc.devRef .tc main_arg6) = X6 m c :=
  (W5_of_ne m ρ c main_arg6 (by decide)).trans (W4_x6 m ρ c)

/-! ## After the second take, aggregation and bias: the result -/

theorem W6_take (h : Cert.Pre_KernelIdeal m) (c : Dev nD) :
    W6 m ρ c (Proc.devRef .tc main_v41)
      = val_main_v56 (F := Ideal) (X0 m c) (X1 m c) (X2 m c) (X3 m c) (X4 m c) (X5 m c) := by
  refine (Walk.take7_eq (W5 m ρ c)).trans ?_
  rw [W5_src m ρ c, W5_prod m ρ h c, mask_ones m h c, select_ones7]
  rfl

theorem W6_dst (c : Dev nD) : W6 m ρ c (Proc.devRef .tc main_v6) = val_main_v6 (F := Ideal) (X1 m c) :=
  (Kept.hostOps2_v6 (W5 m ρ c)).trans (W5_dst m ρ c)
theorem W6_wn (c : Dev nD) : W6 m ρ c (Proc.devRef .tc main_v30) = val_main_v30 (F := Ideal) (X1 m c) (X2 m c) :=
  (Kept.hostOps2_v30 (W5 m ρ c)).trans (W5_wn m ρ c)
theorem W6_x6 (c : Dev nD) : W6 m ρ c (Proc.devRef .tc main_arg6) = X6 m c :=
  (Kept.hostOps2_arg6 (W5 m ρ c)).trans (W5_x6 m ρ c)

/-- What the program leaves in its result buffer is the reference's result term of the same arguments. -/
theorem result_eq (h : Cert.Pre_KernelIdeal m) (c : Dev nD) :
    W7 m ρ c (Proc.devRef .tc main_v50)
      = val_main_v65 (F := Ideal) (X0 m c) (X1 m c) (X2 m c) (X3 m c) (X4 m c) (X5 m c) (X6 m c) := by
  refine (Walk.out_eq (W6 m ρ c)).trans ?_
  rw [W6_dst m ρ c, W6_take m ρ h c, W6_wn m ρ c, W6_x6 m ρ c]
  rfl

end Cert.KernelIdeal.Result

end
-- ==== Proof.lean ====
/-
  A two-layer graph convolution, computed by two dense-layer kernels among host gathers and segment sums, against its
  plain reference, over the extended reals.

  Both programs first append one self loop per node to the edge list and normalise the edge weights symmetrically,
  w · d(src)^(-1/2) · d(dst)^(-1/2) with d the weighted in-degree clamped below; then, twice: multiply the node table by
  a weight matrix, gather one row per edge by source id, scale it by the edge's normalised weight, sum the rows by
  target id, add the bias; between the two layers the rectifier max(·, 0). The kernel program computes each matrix
  product in a grid of ten row blocks (and folds the first bias and the rectifier into the second product's operand);
  a sum over a finite index set does not depend on how it is blocked, so each region's array is the one whole product.
  Its gathers replace the rows of out-of-range source ids by a filler, where the reference's plain gather clamps the
  id; under the precondition every source id is a node id, 0 ≤ id < 100000 (the appended self loops are node ids by
  construction), so the filler is never selected and the two gathers agree. Every other operation is the same on both
  sides. Hence the two results are the same function of the arguments.

  The frames (termination, no fault, arguments unchanged) are the generated ones; the rewriting ledger is empty.
-/
import proofs.«410477_j28424093565729_3_alg».proof.Defs
import proofs.«410477_j28424093565729_3_alg».proof.Proof.Gen.Kernel
import proofs.«410477_j28424093565729_3_alg».proof.Proof.Gen.Kernel.Frame
import proofs.«410477_j28424093565729_3_alg».proof.Proof.Gen.KernelIdeal
import proofs.«410477_j28424093565729_3_alg».proof.Proof.Gen.KernelIdeal.Frame
import proofs.«410477_j28424093565729_3_alg».proof.Proof.Gen.ReferenceIdeal
import proofs.«410477_j28424093565729_3_alg».proof.Proof.Gen.Pre_finite_inputs
import proofs.«410477_j28424093565729_3_alg».proof.Proof.Gen.ReferenceIdeal.Run
import proofs.«410477_j28424093565729_3_alg».proof.Proof.Gen.ReferenceIdeal.Read
import proofs.«410477_j28424093565729_3_alg».proof.Proof.KernelRun
import proofs.«410477_j28424093565729_3_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories agreeing on the arguments both programs end with the same result: the reference's result term of
    the arguments, which the kernel program's fold also reaches when the source ids are node ids. -/
theorem algebraic : Cert.algebraic_KernelIdeal_ReferenceIdeal := by
  intro m ρ m' ρ' hpre hagree
  refine ⟨fun c => Cert.ReferenceIdeal.Read.val_main_v65 (F := Ideal) (Cert.KernelIdeal.Result.X0 m c)
      (Cert.KernelIdeal.Result.X1 m c) (Cert.KernelIdeal.Result.X2 m c) (Cert.KernelIdeal.Result.X3 m c)
      (Cert.KernelIdeal.Result.X4 m c) (Cert.KernelIdeal.Result.X5 m c) (Cert.KernelIdeal.Result.X6 m c), ?_, ?_⟩
  · exact (θ_run Cert.KernelIdeal.defs _ _).mono
      (fun r h c => ⟨(h c).1.trans (Cert.KernelIdeal.Result.result_eq m ρ hpre c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
